-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 85
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S128x128, .f32⟩
  | .hbm, ⟨81, _⟩ => ⟨S128x128, .f32⟩
  | .hbm, ⟨82, _⟩ => ⟨S1x128, .f32⟩
  | .hbm, ⟨83, _⟩ => ⟨S1x128, .f32⟩
  | .hbm, ⟨84, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x1, .f32⟩
  | .local _ .vmem, ⟨17, _⟩ => ⟨S4000x1, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x1, .f32⟩
  | .local _ .vmem, ⟨29, _⟩ => ⟨S4000x1, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S100000x128.size a
  hwx2_7 : ∀ i : grid2.Coords, EltTy.bits .f32 = 32 ∨ (Rect.block (s := S100000x128) S4000x128.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v37) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v52) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x128, .f32⟩
  | 42 => ⟨S100000x128, .f32⟩
  | 43 => ⟨S128x128, .f32⟩
  | 44 => ⟨S100000x128, .f32⟩
  | 45 => ⟨S1x128, .f32⟩
  | 46 => ⟨S100000x128, .f32⟩
  | 47 => ⟨S100000x128, .f32⟩
  | 48 => ⟨S128x128, .f32⟩
  | 49 => ⟨S100000x128, .f32⟩
  | 50 => ⟨S100000x128, .f32⟩
  | 51 => ⟨S_, .f32⟩
  | 52 => ⟨S100000x128, .f32⟩
  | 53 => ⟨S100000x128, .i1⟩
  | 54 => ⟨S1x128, .f32⟩
  | 55 => ⟨S100000x128, .f32⟩
  | 56 => ⟨S100000x128, .f32⟩
  | 57 => ⟨S100000x128, .f32⟩
  | 58 => ⟨S1x1600000, .i32⟩
  | 59 => ⟨S1600000, .i32⟩
  | 60 => ⟨S1x1600000, .i32⟩
  | 61 => ⟨S1600000, .i32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S_, .f32⟩
  | 76 => ⟨S1600000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S128x128, .f32⟩
  | 88 => ⟨S100000x128, .f32⟩
  | 89 => ⟨S1x128, .f32⟩
  | 90 => ⟨S100000x128, .f32⟩
  | 91 => ⟨S100000x128, .f32⟩
  | 92 => ⟨S128x128, .f32⟩
  | 93 => ⟨S100000x128, .f32⟩
  | 94 => ⟨S100000x128, .f32⟩
  | 95 => ⟨S_, .f32⟩
  | 96 => ⟨S100000x128, .f32⟩
  | 97 => ⟨S100000x128, .i1⟩
  | 98 => ⟨S1x128, .f32⟩
  | 99 => ⟨S100000x128, .f32⟩
  | 100 => ⟨S100000x128, .f32⟩
  | 101 => ⟨S100000x128, .f32⟩
  | 102 => ⟨S1x1600000, .i32⟩
  | 103 => ⟨S1600000, .i32⟩
  | 104 => ⟨S1x1600000, .i32⟩
  | 105 => ⟨S1600000, .i32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S_, .f32⟩
  | 120 => ⟨S1600000, .f32⟩
  | 121 => ⟨S_, .f32⟩
  | 122 => ⟨S100000, .f32⟩
  | 123 => ⟨S1600000x1, .i32⟩
  | 124 => ⟨S100000, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S100000x1, .f32⟩
  | 1 => ⟨S100000x128, .f32⟩
  | 2 => ⟨S100000x128, .f32⟩
  | 3 => ⟨S128x128, .f32⟩
  | 4 => ⟨S100000x128, .f32⟩
  | 5 => ⟨S1x128, .f32⟩
  | 6 => ⟨S100000x128, .f32⟩
  | 7 => ⟨S100000x128, .f32⟩
  | 8 => ⟨S128x128, .f32⟩
  | 9 => ⟨S100000x128, .f32⟩
  | 10 => ⟨S100000x128, .f32⟩
  | 11 => ⟨S_, .f32⟩
  | 12 => ⟨S100000x128, .f32⟩
  | 13 => ⟨S100000x128, .i1⟩
  | 14 => ⟨S1x128, .f32⟩
  | 15 => ⟨S100000x128, .f32⟩
  | 16 => ⟨S100000x128, .f32⟩
  | 17 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_c_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_12 : Ref sig .tc := ⟨.hbm, 106, rfl⟩
abbrev main_v78 : Ref sig .tc := ⟨.hbm, 107, rfl⟩
abbrev main_v79 : Ref sig .tc := ⟨.hbm, 108, rfl⟩
abbrev main_c_13 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_15 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_17 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_18 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageLayer.lean ====
/-
  One mean-aggregating graph-convolution layer with a per-channel leaky activation, written as a function of its
  arrays, one output element at a time.

  For node `r` and output channel `j` the layer's pre-activation is

      s(r, j) = ( Σ_k  (agg(r, k) · w(r)) · Wl(k, j)  +  bl(j) )  +  Σ_k  h(r, k) · Wr(k, j)

  where `agg` holds the sums of the neighbours' feature rows, `w(r)` is the weight that turns that sum into a mean
  (the reciprocal of the neighbour count, the count taken as at least one), `h` is the layer's input and `Wl`, `Wr`
  are the two projections laid out contraction-axis first. The output is `s` where `s ≥ 0` and `a(j) · s` elsewhere.

  Also here: the one law of the extended reals the comparison of the two programs needs. One program multiplies the
  neighbour sum by `1 / max(c, 1)`, the other divides it by `max(c, 1)`. A count floored at one is never zero, so
  the quotient is the product with the inverse for EVERY extended real on either side: no finiteness is asked of
  the sum or of the count.
-/
import Idealize.ShloMosaic.PureOps.Ideal.Laws
import Idealize.ShloMosaic.Lib.ValueIdx

noncomputable section

namespace Cert.Sage

open Idealize.ShloMosaic Idealize.ShloMosaic.ValueIdx

/-- Node features: 100000 nodes, 128 channels. -/
abbrev NF : Shape := ⟨2, ![100000, 128]⟩
/-- One number per node, as a column. -/
abbrev N1 : Shape := ⟨2, ![100000, 1]⟩
/-- A projection matrix. -/
abbrev FF : Shape := ⟨2, ![128, 128]⟩
/-- One number per channel, as a row. -/
abbrev F1 : Shape := ⟨2, ![1, 128]⟩

/-- The leaky activation of a pre-activation `s` with slope `a`: `s` where `s ≥ 0`, `a · s` elsewhere. -/
def act (s a : Ideal .f32) : Ideal .f32 :=
  Scalar.select (FloatOps.cmpf .oge s (Ideal.ofBits .f32 0x00000000#32)) s (a * s)

/-- The pre-activation at node `r`, channel `j`. -/
def preAt (agg h : NF.Idx → Ideal .f32) (w : N1.Idx → Ideal .f32) (wl wr : FF.Idx → Ideal .f32)
    (bl : F1.Idx → Ideal .f32) (r : Fin 100000) (j : Fin 128) : Ideal .f32 :=
  ((∑ k : Fin 128, (agg (ix2 r k) * w (ix2 r 0)) * wl (ix2 k j)) + bl (ix2 0 j))
    + ∑ k : Fin 128, h (ix2 r k) * wr (ix2 k j)

/-- The layer's output at node `r`, channel `j`. -/
def layerAt (agg h : NF.Idx → Ideal .f32) (w : N1.Idx → Ideal .f32) (wl wr : FF.Idx → Ideal .f32)
    (bl al : F1.Idx → Ideal .f32) (r : Fin 100000) (j : Fin 128) : Ideal .f32 :=
  act (preAt agg h w wl wr bl r j) (al (ix2 0 j))

/-- The layer's whole output array. -/
def layer (agg h : NF.Idx → Ideal .f32) (w : N1.Idx → Ideal .f32) (wl wr : FF.Idx → Ideal .f32)
    (bl al : F1.Idx → Ideal .f32) : NF.Idx → Ideal .f32 :=
  fun i => layerAt agg h w wl wr bl al (i 0) (i 1)

theorem layer_ix2 (agg h : NF.Idx → Ideal .f32) (w : N1.Idx → Ideal .f32) (wl wr : FF.Idx → Ideal .f32)
    (bl al : F1.Idx → Ideal .f32) (r : Fin 100000) (j : Fin 128) :
    layer agg h w wl wr bl al (ix2 r j) = layerAt agg h w wl wr bl al r j := rfl

/-- The word of the float one is the number one. -/
theorem ofBits_one : Ideal.ofBits .f32 0x3F800000#32 = 1 := IdealRules.sign_bit.ideal_onePat .f32

/-- A count floored at one is not zero. -/
theorem max_one_ne_zero (c : EReal) : max c 1 ≠ 0 :=
  (lt_of_lt_of_le zero_lt_one (le_max_right c 1)).ne'

/-- The reciprocal of a floored count is its inverse. -/
theorem div_one_max (c : EReal) : Ideal.div 1 (max c 1) = (max c 1)⁻¹ := by
  rw [Ideal.div, if_neg (max_one_ne_zero c), one_mul]

/-- Multiplying by the reciprocal of a floored count IS dividing by it, on every extended real. -/
theorem mul_div_one_max (a c : EReal) : a * Ideal.div 1 (max c 1) = Ideal.div a (max c 1) := by
  rw [div_one_max, Ideal.div, if_neg (max_one_ne_zero c)]

end Cert.Sage

end
-- ==== Proof.Graph.lean ====
/-
  The graph side of every layer, and how the kernel program lays the small arrays out for its regions.

  An edge list `e` has a row of source nodes and a row of destination nodes. A source number below zero is wrapped
  once round the node count before it is used as a row index. For a layer input `h` the neighbour sums are the rows
  of `h` at the sources, added up at their destinations; the neighbour counts are ones added up at the destinations.
  Neither program's text says more about these two arrays than the other's: both apply the same gather and the same
  scatter-add to the same index columns, so they are carried here as two opaque functions of `h` and `e`.

  The kernel program then hands its regions: the mean weights `1 / max(count, 1)` as a column; each projection
  transposed, so that its contraction axis comes first; the bias and the slopes as rows.
-/
import proofs.«180678_j54202487275779_1_alg».proof.Proof.Gen.KernelIdeal
import proofs.«180678_j54202487275779_1_alg».proof.Proof.SageLayer
import Idealize.ShloMosaic.Lib.Pipeline.Value
import Idealize.ShloMosaic.Lib.ValueIdx

noncomputable section

namespace Cert.Sage.Graph

open Cert.KernelIdeal Cert.KernelIdeal.Gen Idealize.ShloMosaic Idealize.ShloMosaic.ValueIdx Cert.Sage

/-- The source row of the edge list, as a vector. -/
def srcRow (e : IVec S2x1600000 32) : IVec S1600000 32 :=
  shapeCast S1600000 (extractStridedSlice S1x1600000 ![0, 0] e slices_S2x1600000_S1x1600000_0_0) shapeCasts_S1x1600000_S1600000

/-- The destination row of the edge list, as a vector. -/
def dstRow (e : IVec S2x1600000 32) : IVec S1600000 32 :=
  shapeCast S1600000 (extractStridedSlice S1x1600000 ![1, 0] e slices_S2x1600000_S1x1600000_1_0) shapeCasts_S1x1600000_S1600000

/-- Each edge's source node as a row index: a negative number wrapped once round the node count; a column. -/
def srcIdx (e : IVec S2x1600000 32) : IVec S1600000x1 32 :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- Each edge's destination node, a column. -/
def dstIdx (e : IVec S2x1600000 32) : IVec S1600000x1 32 :=
  broadcastInDim S1600000x1 ![0] bcast_S1600000_S1600000x1_0 (dstRow e)

/-- The neighbour sums of a layer input: its rows at the sources, added up at their destinations. -/
def aggOf (h : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant S_ .f32 0x00000000#32)) (dstIdx e)
    (Host.gather gather_S100000x128_S1600000x1_S1600000x128_1_0_n_n_0_1_1128 h (srcIdx e))

/-- The neighbour counts: ones added up at the destinations. -/
def cntOf (e : IVec S2x1600000 32) : FVec Ideal S100000 .f32 :=
  Host.scatterAdd scatter_S100000_S1600000x1_S1600000_n_0_0_1
    (broadcastInDim S100000 ![] bcast_S_S100000 (constant S_ .f32 0x00000000#32)) (dstIdx e)
    (broadcastInDim S1600000 ![] bcast_S_S1600000 (constant S_ .f32 0x3F800000#32))

/-- The mean weights of a count vector: `1 / max(count, 1)`, as a column. -/
def meanW (d : FVec Ideal S100000 .f32) : FVec Ideal S100000x1 .f32 :=
  shapeCast S100000x1
    (Host.divf (broadcastInDim S100000 ![] bcast_S_S100000 (constant S_ .f32 0x3F800000#32))
      (maximumf d (broadcastInDim S100000 ![] bcast_S_S100000 (constant S_ .f32 0x3F800000#32))))
    shapeCasts_S100000_S100000x1

/-- A projection with its contraction axis first. -/
def tr (W : FVec Ideal S128x128 .f32) : FVec Ideal S128x128 .f32 :=
  transpose S128x128 [1, 0] W transposes_S128x128_S128x128_1_0

/-- A per-channel vector as a row. -/
def row (b : FVec Ideal S128 .f32) : FVec Ideal S1x128 .f32 := shapeCast S1x128 b shapeCasts_S128_S1x128

/-- The mean weight of node `r`. -/
theorem meanW_at (d : FVec Ideal S100000 .f32) (r : Fin 100000) :
    meanW d (ix2 r 0) = Ideal.div 1 (max (d (ix1 r)) 1) := by
  unfold meanW
  rw [shapeCast_apply _ shapeCasts_S100000_S100000x1 (ix2 r 0) (ix1 r)
    (by rewrite [Shape.rowMajor_val_two, Shape.rowMajor_val_one]; show r.val = r.val * 1 + 0; omega)]
  show Ideal.div (Ideal.ofBits .f32 0x3F800000#32) (max (d (ix1 r)) (Ideal.ofBits .f32 0x3F800000#32)) = _
  rw [ofBits_one]

/-- The transposed projection at contraction index `k`, channel `j`. -/
theorem tr_at (W : FVec Ideal S128x128 .f32) (k j : Fin 128) : tr W (ix2 k j) = W (ix2 j k) := by
  unfold tr
  exact transpose_apply [1, 0] W transposes_S128x128_S128x128_1_0 (ix2 k j) (ix2 j k) (fun b => match b with
    | ⟨0, _⟩ => rfl
    | ⟨1, _⟩ => rfl)

/-- The row at channel `j`. -/
theorem row_at (b : FVec Ideal S128 .f32) (j : Fin 128) : row b (ix2 0 j) = b (ix1 j) := by
  unfold row
  exact shapeCast_apply b shapeCasts_S128_S1x128 (ix2 0 j) (ix1 j)
    (by rewrite [Shape.rowMajor_val_two, Shape.rowMajor_val_one]; show j.val = 0 * 128 + j.val; omega)

/-- One layer as the kernel program computes it, from its input, the edge list and the layer's four parameters. -/
def kLayer (h : FVec Ideal S100000x128 .f32) (e : IVec S2x1600000 32) (Wl : FVec Ideal S128x128 .f32)
    (bl : FVec Ideal S128 .f32) (Wr : FVec Ideal S128x128 .f32) (al : FVec Ideal S128 .f32) : FVec Ideal S100000x128 .f32 :=
  layer (aggOf h e) h (meanW (cntOf e)) (tr Wl) (tr Wr) (row bl) (row al)

/-- The three layers composed: the value both programs end with. -/
def net (x : FVec Ideal S100000x128 .f32) (e : IVec S2x1600000 32)
    (Wl1 : FVec Ideal S128x128 .f32) (bl1 : FVec Ideal S128 .f32) (Wr1 : FVec Ideal S128x128 .f32) (a1 : FVec Ideal S128 .f32)
    (Wl2 : FVec Ideal S128x128 .f32) (bl2 : FVec Ideal S128 .f32) (Wr2 : FVec Ideal S128x128 .f32) (a2 : FVec Ideal S128 .f32)
    (Wl3 : FVec Ideal S128x128 .f32) (bl3 : FVec Ideal S128 .f32) (Wr3 : FVec Ideal S128x128 .f32) (a3 : FVec Ideal S128 .f32) :
    FVec Ideal S100000x128 .f32 :=
  kLayer (kLayer (kLayer x e Wl1 bl1 Wr1 a1) e Wl2 bl2 Wr2 a2) e Wl3 bl3 Wr3 a3

end Cert.Sage.Graph

end
-- ==== Proof.Body.lean ====
/-
  The kernel body on one block of 4000 nodes, read one element at a time.

  The body takes the block's neighbour sums `a`, the block's column of mean weights `w`, the block's input rows `x`,
  the two projections `wl`, `wr` (whole, contraction axis first) and the bias and slope rows `bl`, `al`, and stores

      act( (Σ_k (a(p,k) · w(p)) · wl(k,q) + bl(q)) + Σ_k x(p,k) · wr(k,q) ,  al(q) )

  at row `p`, channel `q` of the block. Its two matrix products accumulate into zero, so at the exact values each is
  the plain sum over the contraction index; the narrowing of their operands to sixteen bits is the identity there;
  the column `w` and the rows `bl`, `al` are broadcast along the axis they lack.
-/
import proofs.«180678_j54202487275779_1_alg».proof.Proof.Gen.KernelIdeal.Skeleton
import proofs.«180678_j54202487275779_1_alg».proof.Proof.SageLayer
import Idealize.ShloMosaic.Lib.Pipeline.Value
import Idealize.ShloMosaic.Lib.ValueIdx
import Idealize.ShloMosaic.PureOps.Ideal.Laws

noncomputable section

namespace Cert.Sage.Body

open Cert.KernelIdeal Cert.KernelIdeal.Gen Idealize.ShloMosaic Idealize.ShloMosaic.ValueIdx Cert.Sage

/-! ## A block-times-matrix product into zero, at an element -/

theorem lhs_blk_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_blk_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_blk_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_blk_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product accumulated into zero is, at row `p` and channel `q`, the sum over the contraction index of
    the left operand's row `p` times the right operand's column `q`. -/
theorem matmul_zero_at {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-! ## The broadcasts, at an element -/

/-- A column broadcast along the channels reads its row. -/
theorem bcast_col_at {α : Type} (v : S4000x1.Idx → α) (p : Fin 4000) (q : Fin 128) :
    broadcastTo S4000x128 v broadcasts_S4000x1_S4000x128 (ix2 p q) = v (ix2 p 0) :=
  broadcastTo_apply v broadcasts_S4000x1_S4000x128 (ix2 p q) (ix2 p 0) (fun a => match a with
    | ⟨0, _⟩ => by show p.val = if (4000 : Nat) = 1 then 0 else p.val; rw [if_neg (by decide)]
    | ⟨1, _⟩ => by show 0 = if (1 : Nat) = 1 then 0 else q.val; rw [if_pos rfl])

/-- A row broadcast along the nodes reads its channel. -/
theorem bcast_row_at {α : Type} (v : S1x128.Idx → α) (p : Fin 4000) (q : Fin 128) :
    broadcastTo S4000x128 v broadcasts_S1x128_S4000x128 (ix2 p q) = v (ix2 0 q) :=
  broadcastTo_apply v broadcasts_S1x128_S4000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The body's stored value, at an element -/

/-- The block's pre-activation at row `p`, channel `q`. -/
def blockPre (a x : Vec Ideal S4000x128 .f32) (w : Vec Ideal S4000x1 .f32) (wl wr : Vec Ideal S128x128 .f32)
    (bl : Vec Ideal S1x128 .f32) (p : Fin 4000) (q : Fin 128) : Ideal .f32 :=
  ((∑ k : Fin 128, (a (ix2 p k) * w (ix2 p 0)) * wl (ix2 k q)) + bl (ix2 0 q))
    + ∑ k : Fin 128, x (ix2 p k) * wr (ix2 k q)

/-- What the body stores, as a function of the blocks it loads (neighbour sums, mean weights, input rows, the two
    projections, the bias row, the slope row): the activation of the block's pre-activation, element by element. -/
def pay (a : Vec Ideal S4000x128 .f32) (w : Vec Ideal S4000x1 .f32) (x : Vec Ideal S4000x128 .f32)
    (wl wr : Vec Ideal S128x128 .f32) (bl al : Vec Ideal S1x128 .f32) : FVec Ideal S4000x128 .f32 :=
  fun y => act (blockPre a x w wl wr bl (y 0) (y 1)) (al (ix2 0 (y 1)))

theorem pay_at (a : Vec Ideal S4000x128 .f32) (w : Vec Ideal S4000x1 .f32) (x : Vec Ideal S4000x128 .f32)
    (wl wr : Vec Ideal S128x128 .f32) (bl al : Vec Ideal S1x128 .f32) (p : Fin 4000) (q : Fin 128) :
    pay a w x wl wr bl al (ix2 p q) = act (blockPre a x w wl wr bl p q) (al (ix2 0 q)) := rfl

/-- The reading of a printed body's stored value at an element, once the body's text is unfolded: the shape casts to
    the same shape drop, the selection, the comparison, the products and the sums are read at the element, the two
    matrix products become sums, the broadcasts read their row or column, the narrowings vanish. -/
local macro "read_body_at" : tactic =>
  `(tactic| (simp only [shapeCast_self]
             rw [select_apply, cmpf_apply, mulf_apply, addf_apply, addf_apply, matmul_zero_at, matmul_zero_at, bcast_row_at, bcast_row_at]
             simp only [truncf_apply, mulf_apply, bcast_col_at, broadcast_apply]
             rfl))

/-- The three layers' kernels are one text: each stores `pay` of the blocks it loads. -/
theorem pay_of_k0 : k0_pay1 (F := Ideal) = pay := by
  funext a w x wl wr bl al y
  obtain ⟨p, q, rfl⟩ : ∃ (p : Fin 4000) (q : Fin 128), y = ix2 p q := ⟨y 0, y 1, eq_ix2 y⟩
  rw [pay_at]; unfold k0_pay1; read_body_at
theorem pay_of_k1 : k1_pay1 (F := Ideal) = pay := by
  funext a w x wl wr bl al y
  obtain ⟨p, q, rfl⟩ : ∃ (p : Fin 4000) (q : Fin 128), y = ix2 p q := ⟨y 0, y 1, eq_ix2 y⟩
  rw [pay_at]; unfold k1_pay1; read_body_at
theorem pay_of_k2 : k2_pay1 (F := Ideal) = pay := by
  funext a w x wl wr bl al y
  obtain ⟨p, q, rfl⟩ : ∃ (p : Fin 4000) (q : Fin 128), y = ix2 p q := ⟨y 0, y 1, eq_ix2 y⟩
  rw [pay_at]; unfold k2_pay1; read_body_at

/-! ## A block against the whole arrays -/

/-- Block `T` of the layer. If the block arrays `a`, `x`, `wb` are rows `4000·T …` of the whole arrays `agg`, `h`, `w`,
    and the projections, bias and slopes are the whole ones, then what the body stores at row `p`, channel `q` of the
    block is the layer's output at node `4000·T + p`, channel `q`. -/
theorem block_at (agg h : NF.Idx → Ideal .f32) (w : N1.Idx → Ideal .f32) (wl wr : FF.Idx → Ideal .f32)
    (bl al : F1.Idx → Ideal .f32) (T : Nat) (hT : T < 25)
    (a : Vec Ideal S4000x128 .f32) (wb : Vec Ideal S4000x1 .f32) (x : Vec Ideal S4000x128 .f32)
    (wl' wr' : Vec Ideal S128x128 .f32) (bl' al' : Vec Ideal S1x128 .f32)
    (ha : ∀ (p : Fin 4000) (k : Fin 128), a (ix2 p k) = agg (ix2 ⟨4000 * T + p.val, by have := p.isLt; omega⟩ k))
    (hx : ∀ (p : Fin 4000) (k : Fin 128), x (ix2 p k) = h (ix2 ⟨4000 * T + p.val, by have := p.isLt; omega⟩ k))
    (hw : ∀ (p : Fin 4000), wb (ix2 p 0) = w (ix2 ⟨4000 * T + p.val, by have := p.isLt; omega⟩ 0))
    (hwl : wl' = wl) (hwr : wr' = wr) (hbl : bl' = bl) (hal : al' = al) (p : Fin 4000) (q : Fin 128) :
    pay a wb x wl' wr' bl' al' (ix2 p q)
      = layer agg h w wl wr bl al (ix2 ⟨4000 * T + p.val, by have := p.isLt; omega⟩ q) := by
  subst hwl hwr hbl hal
  rw [pay_at, layer_ix2]
  unfold layerAt blockPre preAt
  simp only [ha, hx, hw]

end Cert.Sage.Body

end
-- ==== Proof.Region0.lean ====
/-
  The first layer's kernel region: what its output array holds when the region ends, as one function of the arrays
  the region finds when it is entered.

  The grid has 25 points. Point `t` is handed rows `4000·t … 4000·t + 3999` of the neighbour sums, of the layer input
  and of the column of mean weights, and the two projections, the bias row and the slope row whole; it writes rows
  `4000·t …` of the output. So what point `t` writes back is block `t` of ONE whole-array function, the layer of
  SageLayer.lean applied to the entry contents; the 25 blocks tile the 100000 rows (row `r` lies in block
  `r / 4000`), hence the output array ends holding that function everywhere.
-/
import proofs.«180678_j54202487275779_1_alg».proof.Proof.Gen.KernelIdeal.Frame
import proofs.«180678_j54202487275779_1_alg».proof.Proof.Body
import Idealize.ShloMosaic.Lib.Pipeline.Value

set_option maxRecDepth 16384

noncomputable section

namespace Cert.Sage.Region0

open Cert.KernelIdeal Cert.KernelIdeal.Gen Idealize.ShloMosaic Idealize.ShloMosaic.TcCoe Idealize.ShloMosaic.ValueIdx
open Idealize.SL.Sem Cert.Sage Cert.Sage.Body
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The region's output as a function of its entry contents: the layer over the neighbour sums, the input, the mean
    weights, the two projections, the bias and the slopes, each where the region's windows find it. -/
abbrev out (c : Dev nD) : NF.Idx → Ideal .f32 :=
  layer (V c main_v22) (V c main_arg0) (V c main_v12) (V c main_v23) (V c main_v24) (V c main_v25) (V c main_v26)

/-- The index maps over the grid: the three row-blocked inputs and the output move with the point along the
    nodes, the other four inputs stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 25 := by have h1 := t.isLt; have h2 : cfg0.N = 25 := N_0; omega

/-- What point `t` writes back is block `t` of `out`. -/
theorem flushed_eq (c : Dev nD) (t : Fin cfg0.N) :
    (dat0 V c).flushed 7 t = ((cfg0.win 7).blk t).view.read (Elt Ideal) (out V c) := by
  show (cfg0.win 7).cut (grid0.coords t) ((dat0 V c).after 7 t) = _
  rw [after0_7]
  unfold out0_7
  rw [pay_of_k0, View.canon_unit_zero origin]
  simp only [View.ld_unit_zero (S := S4000x128) origin, View.ld_unit_zero (S := S4000x1) origin,
    View.ld_unit_zero (S := S128x128) origin, View.ld_unit_zero (S := S1x128) origin]
  obtain ⟨e00, e01, e10, e11, e20, e21, e30, e31, e40, e41, e50, e51, e60, e61, e70, e71⟩ := idx_facts t
  funext y
  obtain ⟨p, q, rfl⟩ : ∃ (p : Fin 4000) (q : Fin 128), y = ix2 p q := ⟨y 0, y 1, eq_ix2 y⟩
  refine (block_at (V c main_v22) (V c main_arg0) (V c main_v12) (V c main_v23) (V c main_v24) (V c main_v25) (V c main_v26)
    t.val (t_lt t) (iblk0 V c 0 t) (iblk0 V c 2 t) (iblk0 V c 1 t) (iblk0 V c 3 t) (iblk0 V c 5 t) (iblk0 V c 4 t) (iblk0 V c 6 t)
    ?_ ?_ ?_ ?_ ?_ ?_ ?_ p q).trans ?_
  · intro p k
    show V c main_v22 (((cfg0.win 0).blk t).view.emb (ix2 p k)) = V c main_v22 _
    refine congrArg _ (funext fun a => Fin.ext ?_)
    match a with
    | ⟨0, _⟩ => show win0_0.index t (0 : Fin 2) * 4000 + 1 * p.val = 4000 * t.val + p.val; omega
    | ⟨1, _⟩ => show win0_0.index t (1 : Fin 2) * 128 + 1 * k.val = k.val; omega
  · intro p k
    show V c main_arg0 (((cfg0.win 1).blk t).view.emb (ix2 p k)) = V c main_arg0 _
    refine congrArg _ (funext fun a => Fin.ext ?_)
    match a with
    | ⟨0, _⟩ => show win0_1.index t (0 : Fin 2) * 4000 + 1 * p.val = 4000 * t.val + p.val; omega
    | ⟨1, _⟩ => show win0_1.index t (1 : Fin 2) * 128 + 1 * k.val = k.val; omega
  · intro p
    show V c main_v12 (((cfg0.win 2).blk t).view.emb (ix2 p 0)) = V c main_v12 _
    refine congrArg _ (funext fun a => Fin.ext ?_)
    match a with
    | ⟨0, _⟩ => show win0_2.index t (0 : Fin 2) * 4000 + 1 * p.val = 4000 * t.val + p.val; omega
    | ⟨1, _⟩ => show win0_2.index t (1 : Fin 2) * 1 + 1 * 0 = 0; omega
  · funext y
    show V c main_v23 (((cfg0.win 3).blk t).view.emb y) = V c main_v23 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v24 (((cfg0.win 5).blk t).view.emb y) = V c main_v24 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  · funext y
    show V c main_v25 (((cfg0.win 4).blk t).view.emb y) = V c main_v25 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · funext y
    show V c main_v26 (((cfg0.win 6).blk t).view.emb y) = V c main_v26 y
    refine congrArg _ (funext fun a => Fin.ext ?_)
    match a with
    | ⟨0, _⟩ => show win0_6.index t (0 : Fin 2) * 1 + 1 * (y 0).val = (y 0).val; omega
    | ⟨1, _⟩ => show win0_6.index t (1 : Fin 2) * 128 + 1 * (y 1).val = (y 1).val; omega
  · show out V c _ = out V c (((cfg0.win 7).blk t).view.emb (ix2 p q))
    refine congrArg _ (funext fun a => Fin.ext ?_)
    match a with
    | ⟨0, _⟩ => show 4000 * t.val + p.val = win0_7.index t (0 : Fin 2) * 4000 + 1 * p.val; omega
    | ⟨1, _⟩ => show q.val = win0_7.index t (1 : Fin 2) * 128 + 1 * q.val; omega

/-- A node row is in point `t`'s output block iff each coordinate is in the block's range on its axis. -/
theorem mem_blk (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v27).slice (win0_7.rect t)).set ↔ _
  rw [View.set_slice_whole, Rect.mem_set_unit]
  exact Iff.rfl

/-- Every element of the output array is in the block of the point `row / 4000`. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : (i 0).val / 4000 < cfg0.N := by have h2 : cfg0.N = 25 := N_0; omega
  refine ⟨⟨(i 0).val / 4000, hN⟩, flush0_7 _, ?_⟩
  rw [mem_blk]
  obtain ⟨-, -, -, -, -, -, -, -, -, -, -, -, -, -, e70, e71⟩ := idx_facts ⟨(i 0).val / 4000, hN⟩
  intro a
  match a with
  | ⟨0, _⟩ => show win0_7.index ⟨(i 0).val / 4000, hN⟩ (0 : Fin 2) * 4000 ≤ (i 0).val ∧ (i 0).val < win0_7.index ⟨(i 0).val / 4000, hN⟩ (0 : Fin 2) * 4000 + 4000; rw [e70]; show (i 0).val / 4000 * 4000 ≤ (i 0).val ∧ (i 0).val < (i 0).val / 4000 * 4000 + 4000; omega
  | ⟨1, _⟩ => show win0_7.index ⟨(i 0).val / 4000, hN⟩ (1 : Fin 2) * 128 ≤ (i 1).val ∧ (i 1).val < win0_7.index ⟨(i 0).val / 4000, hN⟩ (1 : Fin 2) * 128 + 128; rw [e71]; omega

/-- When the region ends its output array holds `out` of the entry contents. -/
theorem final (c : Dev nD) : (dat0 V c).arrAt 7 cfg0.N = out V c :=
  (dat0 V c).arrAt_eq_of_cover 7 (out V c) (fun t _ => flushed_eq V c t) cover

end Cert.Sage.Region0

end
-- ==== Proof.Region1.lean ====
/-
  The second layer's kernel region: what its output array holds when the region ends, as one function of the arrays
  the region finds when it is entered.

  The grid has 25 points. Point `t` is handed rows `4000·t … 4000·t + 3999` of the neighbour sums, of the layer input
  and of the column of mean weights, and the two projections, the bias row and the slope row whole; it writes rows
  `4000·t …` of the output. So what point `t` writes back is block `t` of ONE whole-array function, the layer of
  SageLayer.lean applied to the entry contents; the 25 blocks tile the 100000 rows (row `r` lies in block
  `r / 4000`), hence the output array ends holding that function everywhere.
-/
import proofs.«180678_j54202487275779_1_alg».proof.Proof.Gen.KernelIdeal.Frame
import proofs.«180678_j54202487275779_1_alg».proof.Proof.Body
import Idealize.ShloMosaic.Lib.Pipeline.Value

set_option maxRecDepth 16384

noncomputable section

namespace Cert.Sage.Region1

open Cert.KernelIdeal Cert.KernelIdeal.Gen Idealize.ShloMosaic Idealize.ShloMosaic.TcCoe Idealize.ShloMosaic.ValueIdx
open Idealize.SL.Sem Cert.Sage Cert.Sage.Body
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The region's output as a function of its entry contents: the layer over the neighbour sums, the input, the mean
    weights, the two projections, the bias and the slopes, each where the region's windows find it. -/
abbrev out (c : Dev nD) : NF.Idx → Ideal .f32 :=
  layer (V c main_v37) (V c main_v27) (V c main_v12) (V c main_v38) (V c main_v39) (V c main_v40) (V c main_v41)

/-- The index maps over the grid: the three row-blocked inputs and the output move with the point along the
    nodes, the other four inputs stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 25 := by have h1 := t.isLt; have h2 : cfg1.N = 25 := N_1; omega

/-- What point `t` writes back is block `t` of `out`. -/
theorem flushed_eq (c : Dev nD) (t : Fin cfg1.N) :
    (dat1 V c).flushed 7 t = ((cfg1.win 7).blk t).view.read (Elt Ideal) (out V c) := by
  show (cfg1.win 7).cut (grid1.coords t) ((dat1 V c).after 7 t) = _
  rw [after1_7]
  unfold out1_7
  rw [pay_of_k1, View.canon_unit_zero origin]
  simp only [View.ld_unit_zero (S := S4000x128) origin, View.ld_unit_zero (S := S4000x1) origin,
    View.ld_unit_zero (S := S128x128) origin, View.ld_unit_zero (S := S1x128) origin]
  obtain ⟨e00, e01, e10, e11, e20, e21, e30, e31, e40, e41, e50, e51, e60, e61, e70, e71⟩ := idx_facts t
  funext y
  obtain ⟨p, q, rfl⟩ : ∃ (p : Fin 4000) (q : Fin 128), y = ix2 p q := ⟨y 0, y 1, eq_ix2 y⟩
  refine (block_at (V c main_v37) (V c main_v27) (V c main_v12) (V c main_v38) (V c main_v39) (V c main_v40) (V c main_v41)
    t.val (t_lt t) (iblk1 V c 0 t) (iblk1 V c 2 t) (iblk1 V c 1 t) (iblk1 V c 3 t) (iblk1 V c 5 t) (iblk1 V c 4 t) (iblk1 V c 6 t)
    ?_ ?_ ?_ ?_ ?_ ?_ ?_ p q).trans ?_
  · intro p k
    show V c main_v37 (((cfg1.win 0).blk t).view.emb (ix2 p k)) = V c main_v37 _
    refine congrArg _ (funext fun a => Fin.ext ?_)
    match a with
    | ⟨0, _⟩ => show win1_0.index t (0 : Fin 2) * 4000 + 1 * p.val = 4000 * t.val + p.val; omega
    | ⟨1, _⟩ => show win1_0.index t (1 : Fin 2) * 128 + 1 * k.val = k.val; omega
  · intro p k
    show V c main_v27 (((cfg1.win 1).blk t).view.emb (ix2 p k)) = V c main_v27 _
    refine congrArg _ (funext fun a => Fin.ext ?_)
    match a with
    | ⟨0, _⟩ => show win1_1.index t (0 : Fin 2) * 4000 + 1 * p.val = 4000 * t.val + p.val; omega
    | ⟨1, _⟩ => show win1_1.index t (1 : Fin 2) * 128 + 1 * k.val = k.val; omega
  · intro p
    show V c main_v12 (((cfg1.win 2).blk t).view.emb (ix2 p 0)) = V c main_v12 _
    refine congrArg _ (funext fun a => Fin.ext ?_)
    match a with
    | ⟨0, _⟩ => show win1_2.index t (0 : Fin 2) * 4000 + 1 * p.val = 4000 * t.val + p.val; omega
    | ⟨1, _⟩ => show win1_2.index t (1 : Fin 2) * 1 + 1 * 0 = 0; omega
  · funext y
    show V c main_v38 (((cfg1.win 3).blk t).view.emb y) = V c main_v38 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v39 (((cfg1.win 5).blk t).view.emb y) = V c main_v39 y
    refine congrArg _ (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  · funext y
    show V c main_v40 (((cfg1.win 4).blk t).view.emb y) = V c main_v40 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · funext y
    show V c main_v41 (((cfg1.win 6).blk t).view.emb y) = V c main_v41 y
    refine congrArg _ (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  · show out V c _ = out V c (((cfg1.win 7).blk t).view.emb (ix2 p q))
    refine congrArg _ (funext fun a => Fin.ext ?_)
    match a with
    | ⟨0, _⟩ => show 4000 * t.val + p.val = win1_7.index t (0 : Fin 2) * 4000 + 1 * p.val; omega
    | ⟨1, _⟩ => show q.val = win1_7.index t (1 : Fin 2) * 128 + 1 * q.val; omega

/-- A node row is in point `t`'s output block iff each coordinate is in the block's range on its axis. -/
theorem mem_blk (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v42).slice (win1_7.rect t)).set ↔ _
  rw [View.set_slice_whole, Rect.mem_set_unit]
  exact Iff.rfl

/-- Every element of the output array is in the block of the point `row / 4000`. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : (i 0).val / 4000 < cfg1.N := by have h2 : cfg1.N = 25 := N_1; omega
  refine ⟨⟨(i 0).val / 4000, hN⟩, flush1_7 _, ?_⟩
  rw [mem_blk]
  obtain ⟨-, -, -, -, -, -, -, -, -, -, -, -, -, -, e70, e71⟩ := idx_facts ⟨(i 0).val / 4000, hN⟩
  intro a
  match a with
  | ⟨0, _⟩ => show win1_7.index ⟨(i 0).val / 4000, hN⟩ (0 : Fin 2) * 4000 ≤ (i 0).val ∧ (i 0).val < win1_7.index ⟨(i 0).val / 4000, hN⟩ (0 : Fin 2) * 4000 + 4000; rw [e70]; show (i 0).val / 4000 * 4000 ≤ (i 0).val ∧ (i 0).val < (i 0).val / 4000 * 4000 + 4000; omega
  | ⟨1, _⟩ => show win1_7.index ⟨(i 0).val / 4000, hN⟩ (1 : Fin 2) * 128 ≤ (i 1).val ∧ (i 1).val < win1_7.index ⟨(i 0).val / 4000, hN⟩ (1 : Fin 2) * 128 + 128; rw [e71]; omega

/-- When the region ends its output array holds `out` of the entry contents. -/
theorem final (c : Dev nD) : (dat1 V c).arrAt 7 cfg1.N = out V c :=
  (dat1 V c).arrAt_eq_of_cover 7 (out V c) (fun t _ => flushed_eq V c t) cover

end Cert.Sage.Region1

end
-- ==== Proof.Region2.lean ====
/-
  The third layer's kernel region: what its output array holds when the region ends, as one function of the arrays
  the region finds when it is entered.

  The grid has 25 points. Point `t` is handed rows `4000·t … 4000·t + 3999` of the neighbour sums, of the layer input
  and of the column of mean weights, and the two projections, the bias row and the slope row whole; it writes rows
  `4000·t …` of the output. So what point `t` writes back is block `t` of ONE whole-array function, the layer of
  SageLayer.lean applied to the entry contents; the 25 blocks tile the 100000 rows (row `r` lies in block
  `r / 4000`), hence the output array ends holding that function everywhere.
-/
import proofs.«180678_j54202487275779_1_alg».proof.Proof.Gen.KernelIdeal.Frame
import proofs.«180678_j54202487275779_1_alg».proof.Proof.Body
import Idealize.ShloMosaic.Lib.Pipeline.Value

set_option maxRecDepth 16384

noncomputable section

namespace Cert.Sage.Region2

open Cert.KernelIdeal Cert.KernelIdeal.Gen Idealize.ShloMosaic Idealize.ShloMosaic.TcCoe Idealize.ShloMosaic.ValueIdx
open Idealize.SL.Sem Cert.Sage Cert.Sage.Body
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The region's output as a function of its entry contents: the layer over the neighbour sums, the input, the mean
    weights, the two projections, the bias and the slopes, each where the region's windows find it. -/
abbrev out (c : Dev nD) : NF.Idx → Ideal .f32 :=
  layer (V c main_v52) (V c main_v42) (V c main_v12) (V c main_v53) (V c main_v54) (V c main_v55) (V c main_v56)

/-- The index maps over the grid: the three row-blocked inputs and the output move with the point along the
    nodes, the other four inputs stay at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem t_lt (t : Fin cfg2.N) : t.val < 25 := by have h1 := t.isLt; have h2 : cfg2.N = 25 := N_2; omega

/-- What point `t` writes back is block `t` of `out`. -/
theorem flushed_eq (c : Dev nD) (t : Fin cfg2.N) :
    (dat2 V c).flushed 7 t = ((cfg2.win 7).blk t).view.read (Elt Ideal) (out V c) := by
  show (cfg2.win 7).cut (grid2.coords t) ((dat2 V c).after 7 t) = _
  rw [after2_7]
  unfold out2_7
  rw [pay_of_k2, View.canon_unit_zero origin]
  simp only [View.ld_unit_zero (S := S4000x128) origin, View.ld_unit_zero (S := S4000x1) origin,
    View.ld_unit_zero (S := S128x128) origin, View.ld_unit_zero (S := S1x128) origin]
  obtain ⟨e00, e01, e10, e11, e20, e21, e30, e31, e40, e41, e50, e51, e60, e61, e70, e71⟩ := idx_facts t
  funext y
  obtain ⟨p, q, rfl⟩ : ∃ (p : Fin 4000) (q : Fin 128), y = ix2 p q := ⟨y 0, y 1, eq_ix2 y⟩
  refine (block_at (V c main_v52) (V c main_v42) (V c main_v12) (V c main_v53) (V c main_v54) (V c main_v55) (V c main_v56)
    t.val (t_lt t) (iblk2 V c 0 t) (iblk2 V c 2 t) (iblk2 V c 1 t) (iblk2 V c 3 t) (iblk2 V c 5 t) (iblk2 V c 4 t) (iblk2 V c 6 t)
    ?_ ?_ ?_ ?_ ?_ ?_ ?_ p q).trans ?_
  · intro p k
    show V c main_v52 (((cfg2.win 0).blk t).view.emb (ix2 p k)) = V c main_v52 _
    refine congrArg _ (funext fun a => Fin.ext ?_)
    match a with
    | ⟨0, _⟩ => show win2_0.index t (0 : Fin 2) * 4000 + 1 * p.val = 4000 * t.val + p.val; omega
    | ⟨1, _⟩ => show win2_0.index t (1 : Fin 2) * 128 + 1 * k.val = k.val; omega
  · intro p k
    show V c main_v42 (((cfg2.win 1).blk t).view.emb (ix2 p k)) = V c main_v42 _
    refine congrArg _ (funext fun a => Fin.ext ?_)
    match a with
    | ⟨0, _⟩ => show win2_1.index t (0 : Fin 2) * 4000 + 1 * p.val = 4000 * t.val + p.val; omega
    | ⟨1, _⟩ => show win2_1.index t (1 : Fin 2) * 128 + 1 * k.val = k.val; omega
  · intro p
    show V c main_v12 (((cfg2.win 2).blk t).view.emb (ix2 p 0)) = V c main_v12 _
    refine congrArg _ (funext fun a => Fin.ext ?_)
    match a with
    | ⟨0, _⟩ => show win2_2.index t (0 : Fin 2) * 4000 + 1 * p.val = 4000 * t.val + p.val; omega
    | ⟨1, _⟩ => show win2_2.index t (1 : Fin 2) * 1 + 1 * 0 = 0; omega
  · funext y
    show V c main_v53 (((cfg2.win 3).blk t).view.emb y) = V c main_v53 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · funext y
    show V c main_v54 (((cfg2.win 5).blk t).view.emb y) = V c main_v54 y
    refine congrArg _ (funext fun a => Fin.ext ?_)
    match a with
    | ⟨0, _⟩ => show win2_5.index t (0 : Fin 2) * 128 + 1 * (y 0).val = (y 0).val; omega
    | ⟨1, _⟩ => show win2_5.index t (1 : Fin 2) * 128 + 1 * (y 1).val = (y 1).val; omega
  · funext y
    show V c main_v55 (((cfg2.win 4).blk t).view.emb y) = V c main_v55 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  · funext y
    show V c main_v56 (((cfg2.win 6).blk t).view.emb y) = V c main_v56 y
    refine congrArg _ (funext fun a => Fin.ext ?_)
    match a with
    | ⟨0, _⟩ => show win2_6.index t (0 : Fin 2) * 1 + 1 * (y 0).val = (y 0).val; omega
    | ⟨1, _⟩ => show win2_6.index t (1 : Fin 2) * 128 + 1 * (y 1).val = (y 1).val; omega
  · show out V c _ = out V c (((cfg2.win 7).blk t).view.emb (ix2 p q))
    refine congrArg _ (funext fun a => Fin.ext ?_)
    match a with
    | ⟨0, _⟩ => show 4000 * t.val + p.val = win2_7.index t (0 : Fin 2) * 4000 + 1 * p.val; omega
    | ⟨1, _⟩ => show q.val = win2_7.index t (1 : Fin 2) * 128 + 1 * q.val; omega

/-- A node row is in point `t`'s output block iff each coordinate is in the block's range on its axis. -/
theorem mem_blk (t : Fin cfg2.N) (i : S100000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v57).slice (win2_7.rect t)).set ↔ _
  rw [View.set_slice_whole, Rect.mem_set_unit]
  exact Iff.rfl

/-- Every element of the output array is in the block of the point `row / 4000`. -/
theorem cover (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : (i 0).val / 4000 < cfg2.N := by have h2 : cfg2.N = 25 := N_2; omega
  refine ⟨⟨(i 0).val / 4000, hN⟩, flush2_7 _, ?_⟩
  rw [mem_blk]
  obtain ⟨-, -, -, -, -, -, -, -, -, -, -, -, -, -, e70, e71⟩ := idx_facts ⟨(i 0).val / 4000, hN⟩
  intro a
  match a with
  | ⟨0, _⟩ => show win2_7.index ⟨(i 0).val / 4000, hN⟩ (0 : Fin 2) * 4000 ≤ (i 0).val ∧ (i 0).val < win2_7.index ⟨(i 0).val / 4000, hN⟩ (0 : Fin 2) * 4000 + 4000; rw [e70]; show (i 0).val / 4000 * 4000 ≤ (i 0).val ∧ (i 0).val < (i 0).val / 4000 * 4000 + 4000; omega
  | ⟨1, _⟩ => show win2_7.index ⟨(i 0).val / 4000, hN⟩ (1 : Fin 2) * 128 ≤ (i 1).val ∧ (i 1).val < win2_7.index ⟨(i 0).val / 4000, hN⟩ (1 : Fin 2) * 128 + 128; rw [e71]; omega

/-- When the region ends its output array holds `out` of the entry contents. -/
theorem final (c : Dev nD) : (dat2 V c).arrAt 7 cfg2.N = out V c :=
  (dat2 V c).arrAt_eq_of_cover 7 (out V c) (fun t _ => flushed_eq V c t) cover

end Cert.Sage.Region2

end
-- ==== Proof.KernelValue.lean ====
/-
  What the kernel program's result array holds when the program ends: three layers composed.

  The program is three stretches of host operations, each followed by a kernel region. The generated frame names the
  contents of every buffer at each of the six segment boundaries: after a host stretch a buffer holds what the
  stretch's operations compute from the boundary before; after a region the region's arrays hold what its grid left
  and every other buffer is as before. Read back through those boundaries:

  * before region 1 the neighbour sums of the input, the input itself, the mean weights, and the first layer's
    parameters laid out, stand where the region's windows look, so the region's output is the first layer;
  * nothing after that writes the edge rows, the mean weights or the later layers' parameters, so before region 2
    the same holds with the first layer's output as input, and before region 3 with the second's.

  The result array is region 3's output.
-/
import proofs.«180678_j54202487275779_1_alg».proof.Proof.Gen.KernelIdeal.Frame
import proofs.«180678_j54202487275779_1_alg».proof.Proof.KernelRun
import proofs.«180678_j54202487275779_1_alg».proof.Proof.Graph
import proofs.«180678_j54202487275779_1_alg».proof.Proof.Region0
import proofs.«180678_j54202487275779_1_alg».proof.Proof.Region1
import proofs.«180678_j54202487275779_1_alg».proof.Proof.Region2
import Idealize.ShloMosaic.Lib.StableHlo.Run

set_option maxRecDepth 16384
-- a boundary's contents are read through a stretch of up to 34 host operations, one rewrite per operation and buffer
set_option maxHeartbeats 1000000

noncomputable section

namespace Cert.Sage.KernelValue

open Cert.KernelIdeal Cert.KernelIdeal.Gen Idealize.ShloMosaic Idealize.ShloMosaic.TcCoe Idealize.ShloMosaic.StableHlo
open Idealize.SL.Sem Cert.Sage Cert.Sage.Graph

variable (m : (ℓ : Loc nD τ sig) → Buf (Elt Ideal) ℓ) (ρ : Dev nD → PrngReg)

/-- The first layer's output, of the arguments. -/
def h1 (c : Dev nD) : FVec Ideal S100000x128 .f32 := kLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The second layer's output. -/
def h2 (c : Dev nD) : FVec Ideal S100000x128 .f32 := kLayer (h1 m c) (m ((c : Thread nD τ).loc main_arg1)) (m ((c : Thread nD τ).loc main_arg6)) (m ((c : Thread nD τ).loc main_arg7)) (m ((c : Thread nD τ).loc main_arg8)) (m ((c : Thread nD τ).loc main_arg9))
/-- The third layer's output: the program's result. -/
def h3 (c : Dev nD) : FVec Ideal S100000x128 .f32 := kLayer (h2 m c) (m ((c : Thread nD τ).loc main_arg1)) (m ((c : Thread nD τ).loc main_arg10)) (m ((c : Thread nD τ).loc main_arg11)) (m ((c : Thread nD τ).loc main_arg12)) (m ((c : Thread nD τ).loc main_arg13))

/-! ## Boundary 1: after the first host stretch -/

theorem w1_v1 (c : Dev nD) : W1 m ρ c (Proc.devRef .tc main_v1) = srcRow (m ((c : Thread nD τ).loc main_arg1)) := by
  show StableHlo.after hostOps0 (W0 m ρ c) (Proc.devRef .tc main_v1) = _
  after_results; rfl
theorem w1_v3 (c : Dev nD) : W1 m ρ c (Proc.devRef .tc main_v3) = dstRow (m ((c : Thread nD τ).loc main_arg1)) := by
  show StableHlo.after hostOps0 (W0 m ρ c) (Proc.devRef .tc main_v3) = _
  after_results; rfl
theorem w1_v12 (c : Dev nD) : W1 m ρ c (Proc.devRef .tc main_v12) = meanW (cntOf (m ((c : Thread nD τ).loc main_arg1))) := by
  show StableHlo.after hostOps0 (W0 m ρ c) (Proc.devRef .tc main_v12) = _
  after_results; rfl
theorem w1_v22 (c : Dev nD) : W1 m ρ c (Proc.devRef .tc main_v22) = aggOf (m ((c : Thread nD τ).loc main_arg0)) (m ((c : Thread nD τ).loc main_arg1)) := by
  show StableHlo.after hostOps0 (W0 m ρ c) (Proc.devRef .tc main_v22) = _
  after_results
  unfold aggOf dstIdx srcIdx srcRow dstRow
  rfl
theorem w1_arg0 (c : Dev nD) : W1 m ρ c (Proc.devRef .tc main_arg0) = (m ((c : Thread nD τ).loc main_arg0)) := by
  show StableHlo.after hostOps0 (W0 m ρ c) (Proc.devRef .tc main_arg0) = _
  after_results
theorem w1_v23 (c : Dev nD) : W1 m ρ c (Proc.devRef .tc main_v23) = tr (m ((c : Thread nD τ).loc main_arg2)) := by
  show StableHlo.after hostOps0 (W0 m ρ c) (Proc.devRef .tc main_v23) = _
  after_results; rfl
theorem w1_v24 (c : Dev nD) : W1 m ρ c (Proc.devRef .tc main_v24) = tr (m ((c : Thread nD τ).loc main_arg4)) := by
  show StableHlo.after hostOps0 (W0 m ρ c) (Proc.devRef .tc main_v24) = _
  after_results; rfl
theorem w1_v25 (c : Dev nD) : W1 m ρ c (Proc.devRef .tc main_v25) = row (m ((c : Thread nD τ).loc main_arg3)) := by
  show StableHlo.after hostOps0 (W0 m ρ c) (Proc.devRef .tc main_v25) = _
  after_results; rfl
theorem w1_v26 (c : Dev nD) : W1 m ρ c (Proc.devRef .tc main_v26) = row (m ((c : Thread nD τ).loc main_arg5)) := by
  show StableHlo.after hostOps0 (W0 m ρ c) (Proc.devRef .tc main_v26) = _
  after_results; rfl
theorem w1_arg6 (c : Dev nD) : W1 m ρ c (Proc.devRef .tc main_arg6) = (m ((c : Thread nD τ).loc main_arg6)) := by
  show StableHlo.after hostOps0 (W0 m ρ c) (Proc.devRef .tc main_arg6) = _
  after_results
theorem w1_arg7 (c : Dev nD) : W1 m ρ c (Proc.devRef .tc main_arg7) = (m ((c : Thread nD τ).loc main_arg7)) := by
  show StableHlo.after hostOps0 (W0 m ρ c) (Proc.devRef .tc main_arg7) = _
  after_results
theorem w1_arg8 (c : Dev nD) : W1 m ρ c (Proc.devRef .tc main_arg8) = (m ((c : Thread nD τ).loc main_arg8)) := by
  show StableHlo.after hostOps0 (W0 m ρ c) (Proc.devRef .tc main_arg8) = _
  after_results
theorem w1_arg9 (c : Dev nD) : W1 m ρ c (Proc.devRef .tc main_arg9) = (m ((c : Thread nD τ).loc main_arg9)) := by
  show StableHlo.after hostOps0 (W0 m ρ c) (Proc.devRef .tc main_arg9) = _
  after_results
theorem w1_arg10 (c : Dev nD) : W1 m ρ c (Proc.devRef .tc main_arg10) = (m ((c : Thread nD τ).loc main_arg10)) := by
  show StableHlo.after hostOps0 (W0 m ρ c) (Proc.devRef .tc main_arg10) = _
  after_results
theorem w1_arg11 (c : Dev nD) : W1 m ρ c (Proc.devRef .tc main_arg11) = (m ((c : Thread nD τ).loc main_arg11)) := by
  show StableHlo.after hostOps0 (W0 m ρ c) (Proc.devRef .tc main_arg11) = _
  after_results
theorem w1_arg12 (c : Dev nD) : W1 m ρ c (Proc.devRef .tc main_arg12) = (m ((c : Thread nD τ).loc main_arg12)) := by
  show StableHlo.after hostOps0 (W0 m ρ c) (Proc.devRef .tc main_arg12) = _
  after_results
theorem w1_arg13 (c : Dev nD) : W1 m ρ c (Proc.devRef .tc main_arg13) = (m ((c : Thread nD τ).loc main_arg13)) := by
  show StableHlo.after hostOps0 (W0 m ρ c) (Proc.devRef .tc main_arg13) = _
  after_results

/-! ## Boundary 2: after region 1 -/

/-- Region 1 leaves the first layer's output in its output array. -/
theorem w2_v27 (c : Dev nD) : W2 m ρ c (Proc.devRef .tc main_v27) = h1 m c := by
  refine (W2_arr m ρ c 7).trans ?_
  rw [Region0.final]
  show layer (W1 m ρ c (Proc.devRef .tc main_v22)) (W1 m ρ c (Proc.devRef .tc main_arg0)) (W1 m ρ c (Proc.devRef .tc main_v12))
    (W1 m ρ c (Proc.devRef .tc main_v23)) (W1 m ρ c (Proc.devRef .tc main_v24)) (W1 m ρ c (Proc.devRef .tc main_v25)) (W1 m ρ c (Proc.devRef .tc main_v26)) = _
  rw [w1_v22, w1_arg0, w1_v12, w1_v23, w1_v24, w1_v25, w1_v26]
  rfl
theorem w2_v1 (c : Dev nD) : W2 m ρ c (Proc.devRef .tc main_v1) = srcRow (m ((c : Thread nD τ).loc main_arg1)) :=
  (W2_of_ne m ρ c main_v1 (by decide)).trans (w1_v1 m ρ c)
theorem w2_v3 (c : Dev nD) : W2 m ρ c (Proc.devRef .tc main_v3) = dstRow (m ((c : Thread nD τ).loc main_arg1)) :=
  (W2_of_ne m ρ c main_v3 (by decide)).trans (w1_v3 m ρ c)
theorem w2_arg6 (c : Dev nD) : W2 m ρ c (Proc.devRef .tc main_arg6) = (m ((c : Thread nD τ).loc main_arg6)) :=
  (W2_of_ne m ρ c main_arg6 (by decide)).trans (w1_arg6 m ρ c)
theorem w2_arg7 (c : Dev nD) : W2 m ρ c (Proc.devRef .tc main_arg7) = (m ((c : Thread nD τ).loc main_arg7)) :=
  (W2_of_ne m ρ c main_arg7 (by decide)).trans (w1_arg7 m ρ c)
theorem w2_arg8 (c : Dev nD) : W2 m ρ c (Proc.devRef .tc main_arg8) = (m ((c : Thread nD τ).loc main_arg8)) :=
  (W2_of_ne m ρ c main_arg8 (by decide)).trans (w1_arg8 m ρ c)
theorem w2_arg9 (c : Dev nD) : W2 m ρ c (Proc.devRef .tc main_arg9) = (m ((c : Thread nD τ).loc main_arg9)) :=
  (W2_of_ne m ρ c main_arg9 (by decide)).trans (w1_arg9 m ρ c)
theorem w2_arg10 (c : Dev nD) : W2 m ρ c (Proc.devRef .tc main_arg10) = (m ((c : Thread nD τ).loc main_arg10)) :=
  (W2_of_ne m ρ c main_arg10 (by decide)).trans (w1_arg10 m ρ c)
theorem w2_arg11 (c : Dev nD) : W2 m ρ c (Proc.devRef .tc main_arg11) = (m ((c : Thread nD τ).loc main_arg11)) :=
  (W2_of_ne m ρ c main_arg11 (by decide)).trans (w1_arg11 m ρ c)
theorem w2_arg12 (c : Dev nD) : W2 m ρ c (Proc.devRef .tc main_arg12) = (m ((c : Thread nD τ).loc main_arg12)) :=
  (W2_of_ne m ρ c main_arg12 (by decide)).trans (w1_arg12 m ρ c)
theorem w2_arg13 (c : Dev nD) : W2 m ρ c (Proc.devRef .tc main_arg13) = (m ((c : Thread nD τ).loc main_arg13)) :=
  (W2_of_ne m ρ c main_arg13 (by decide)).trans (w1_arg13 m ρ c)
theorem w2_v12 (c : Dev nD) : W2 m ρ c (Proc.devRef .tc main_v12) = meanW (cntOf (m ((c : Thread nD τ).loc main_arg1))) :=
  (W2_arr m ρ c 2).trans (((dat0 (V1 m ρ) c).arrAt_in 2 rfl _).trans ((A_eq0 (V1 m ρ) c 2).trans (w1_v12 m ρ c)))

/-! ## Boundary 3: after the second host stretch -/

theorem w3_v37 (c : Dev nD) : W3 m ρ c (Proc.devRef .tc main_v37) = aggOf (h1 m c) (m ((c : Thread nD τ).loc main_arg1)) := by
  show StableHlo.after hostOps1 (W2 m ρ c) (Proc.devRef .tc main_v37) = _
  after_results
  rw [w2_v27, w2_v1, w2_v3]
  rfl
theorem w3_v27 (c : Dev nD) : W3 m ρ c (Proc.devRef .tc main_v27) = h1 m c := by
  show StableHlo.after hostOps1 (W2 m ρ c) (Proc.devRef .tc main_v27) = _
  after_results
  exact w2_v27 m ρ c
theorem w3_v12 (c : Dev nD) : W3 m ρ c (Proc.devRef .tc main_v12) = meanW (cntOf (m ((c : Thread nD τ).loc main_arg1))) := by
  show StableHlo.after hostOps1 (W2 m ρ c) (Proc.devRef .tc main_v12) = _
  after_results
  exact w2_v12 m ρ c
theorem w3_v38 (c : Dev nD) : W3 m ρ c (Proc.devRef .tc main_v38) = tr (m ((c : Thread nD τ).loc main_arg6)) := by
  show StableHlo.after hostOps1 (W2 m ρ c) (Proc.devRef .tc main_v38) = _
  after_results
  rw [w2_arg6]; rfl
theorem w3_v39 (c : Dev nD) : W3 m ρ c (Proc.devRef .tc main_v39) = tr (m ((c : Thread nD τ).loc main_arg8)) := by
  show StableHlo.after hostOps1 (W2 m ρ c) (Proc.devRef .tc main_v39) = _
  after_results
  rw [w2_arg8]; rfl
theorem w3_v40 (c : Dev nD) : W3 m ρ c (Proc.devRef .tc main_v40) = row (m ((c : Thread nD τ).loc main_arg7)) := by
  show StableHlo.after hostOps1 (W2 m ρ c) (Proc.devRef .tc main_v40) = _
  after_results
  rw [w2_arg7]; rfl
theorem w3_v41 (c : Dev nD) : W3 m ρ c (Proc.devRef .tc main_v41) = row (m ((c : Thread nD τ).loc main_arg9)) := by
  show StableHlo.after hostOps1 (W2 m ρ c) (Proc.devRef .tc main_v41) = _
  after_results
  rw [w2_arg9]; rfl
theorem w3_v1 (c : Dev nD) : W3 m ρ c (Proc.devRef .tc main_v1) = srcRow (m ((c : Thread nD τ).loc main_arg1)) := by
  show StableHlo.after hostOps1 (W2 m ρ c) (Proc.devRef .tc main_v1) = _
  after_results
  exact w2_v1 m ρ c
theorem w3_v3 (c : Dev nD) : W3 m ρ c (Proc.devRef .tc main_v3) = dstRow (m ((c : Thread nD τ).loc main_arg1)) := by
  show StableHlo.after hostOps1 (W2 m ρ c) (Proc.devRef .tc main_v3) = _
  after_results
  exact w2_v3 m ρ c
theorem w3_arg10 (c : Dev nD) : W3 m ρ c (Proc.devRef .tc main_arg10) = (m ((c : Thread nD τ).loc main_arg10)) := by
  show StableHlo.after hostOps1 (W2 m ρ c) (Proc.devRef .tc main_arg10) = _
  after_results
  exact w2_arg10 m ρ c
theorem w3_arg11 (c : Dev nD) : W3 m ρ c (Proc.devRef .tc main_arg11) = (m ((c : Thread nD τ).loc main_arg11)) := by
  show StableHlo.after hostOps1 (W2 m ρ c) (Proc.devRef .tc main_arg11) = _
  after_results
  exact w2_arg11 m ρ c
theorem w3_arg12 (c : Dev nD) : W3 m ρ c (Proc.devRef .tc main_arg12) = (m ((c : Thread nD τ).loc main_arg12)) := by
  show StableHlo.after hostOps1 (W2 m ρ c) (Proc.devRef .tc main_arg12) = _
  after_results
  exact w2_arg12 m ρ c
theorem w3_arg13 (c : Dev nD) : W3 m ρ c (Proc.devRef .tc main_arg13) = (m ((c : Thread nD τ).loc main_arg13)) := by
  show StableHlo.after hostOps1 (W2 m ρ c) (Proc.devRef .tc main_arg13) = _
  after_results
  exact w2_arg13 m ρ c

/-! ## Boundary 4: after region 2 -/

/-- Region 2 leaves the second layer's output in its output array. -/
theorem w4_v42 (c : Dev nD) : W4 m ρ c (Proc.devRef .tc main_v42) = h2 m c := by
  refine (W4_arr m ρ c 7).trans ?_
  rw [Region1.final]
  show layer (W3 m ρ c (Proc.devRef .tc main_v37)) (W3 m ρ c (Proc.devRef .tc main_v27)) (W3 m ρ c (Proc.devRef .tc main_v12))
    (W3 m ρ c (Proc.devRef .tc main_v38)) (W3 m ρ c (Proc.devRef .tc main_v39)) (W3 m ρ c (Proc.devRef .tc main_v40)) (W3 m ρ c (Proc.devRef .tc main_v41)) = _
  rw [w3_v37, w3_v27, w3_v12, w3_v38, w3_v39, w3_v40, w3_v41]
  rfl
theorem w4_v1 (c : Dev nD) : W4 m ρ c (Proc.devRef .tc main_v1) = srcRow (m ((c : Thread nD τ).loc main_arg1)) :=
  (W4_of_ne m ρ c main_v1 (by decide)).trans (w3_v1 m ρ c)
theorem w4_v3 (c : Dev nD) : W4 m ρ c (Proc.devRef .tc main_v3) = dstRow (m ((c : Thread nD τ).loc main_arg1)) :=
  (W4_of_ne m ρ c main_v3 (by decide)).trans (w3_v3 m ρ c)
theorem w4_arg10 (c : Dev nD) : W4 m ρ c (Proc.devRef .tc main_arg10) = (m ((c : Thread nD τ).loc main_arg10)) :=
  (W4_of_ne m ρ c main_arg10 (by decide)).trans (w3_arg10 m ρ c)
theorem w4_arg11 (c : Dev nD) : W4 m ρ c (Proc.devRef .tc main_arg11) = (m ((c : Thread nD τ).loc main_arg11)) :=
  (W4_of_ne m ρ c main_arg11 (by decide)).trans (w3_arg11 m ρ c)
theorem w4_arg12 (c : Dev nD) : W4 m ρ c (Proc.devRef .tc main_arg12) = (m ((c : Thread nD τ).loc main_arg12)) :=
  (W4_of_ne m ρ c main_arg12 (by decide)).trans (w3_arg12 m ρ c)
theorem w4_arg13 (c : Dev nD) : W4 m ρ c (Proc.devRef .tc main_arg13) = (m ((c : Thread nD τ).loc main_arg13)) :=
  (W4_of_ne m ρ c main_arg13 (by decide)).trans (w3_arg13 m ρ c)
theorem w4_v12 (c : Dev nD) : W4 m ρ c (Proc.devRef .tc main_v12) = meanW (cntOf (m ((c : Thread nD τ).loc main_arg1))) :=
  (W4_arr m ρ c 2).trans (((dat1 (V3 m ρ) c).arrAt_in 2 rfl _).trans ((A_eq1 (V3 m ρ) c 2).trans (w3_v12 m ρ c)))

/-! ## Boundary 5: after the third host stretch -/

theorem w5_v52 (c : Dev nD) : W5 m ρ c (Proc.devRef .tc main_v52) = aggOf (h2 m c) (m ((c : Thread nD τ).loc main_arg1)) := by
  show StableHlo.after hostOps2 (W4 m ρ c) (Proc.devRef .tc main_v52) = _
  after_results
  rw [w4_v42, w4_v1, w4_v3]
  rfl
theorem w5_v42 (c : Dev nD) : W5 m ρ c (Proc.devRef .tc main_v42) = h2 m c := by
  show StableHlo.after hostOps2 (W4 m ρ c) (Proc.devRef .tc main_v42) = _
  after_results
  exact w4_v42 m ρ c
theorem w5_v12 (c : Dev nD) : W5 m ρ c (Proc.devRef .tc main_v12) = meanW (cntOf (m ((c : Thread nD τ).loc main_arg1))) := by
  show StableHlo.after hostOps2 (W4 m ρ c) (Proc.devRef .tc main_v12) = _
  after_results
  exact w4_v12 m ρ c
theorem w5_v53 (c : Dev nD) : W5 m ρ c (Proc.devRef .tc main_v53) = tr (m ((c : Thread nD τ).loc main_arg10)) := by
  show StableHlo.after hostOps2 (W4 m ρ c) (Proc.devRef .tc main_v53) = _
  after_results
  rw [w4_arg10]; rfl
theorem w5_v54 (c : Dev nD) : W5 m ρ c (Proc.devRef .tc main_v54) = tr (m ((c : Thread nD τ).loc main_arg12)) := by
  show StableHlo.after hostOps2 (W4 m ρ c) (Proc.devRef .tc main_v54) = _
  after_results
  rw [w4_arg12]; rfl
theorem w5_v55 (c : Dev nD) : W5 m ρ c (Proc.devRef .tc main_v55) = row (m ((c : Thread nD τ).loc main_arg11)) := by
  show StableHlo.after hostOps2 (W4 m ρ c) (Proc.devRef .tc main_v55) = _
  after_results
  rw [w4_arg11]; rfl
theorem w5_v56 (c : Dev nD) : W5 m ρ c (Proc.devRef .tc main_v56) = row (m ((c : Thread nD τ).loc main_arg13)) := by
  show StableHlo.after hostOps2 (W4 m ρ c) (Proc.devRef .tc main_v56) = _
  after_results
  rw [w4_arg13]; rfl

/-! ## Boundary 6: after region 3, the program's end -/

/-- Region 3 leaves the third layer's output in the result array. -/
theorem w6_v57 (c : Dev nD) : W6 m ρ c (Proc.devRef .tc main_v57) = h3 m c := by
  refine (W6_arr m ρ c 7).trans ?_
  rw [Region2.final]
  show layer (W5 m ρ c (Proc.devRef .tc main_v52)) (W5 m ρ c (Proc.devRef .tc main_v42)) (W5 m ρ c (Proc.devRef .tc main_v12))
    (W5 m ρ c (Proc.devRef .tc main_v53)) (W5 m ρ c (Proc.devRef .tc main_v54)) (W5 m ρ c (Proc.devRef .tc main_v55)) (W5 m ρ c (Proc.devRef .tc main_v56)) = _
  rw [w5_v52, w5_v42, w5_v12, w5_v53, w5_v54, w5_v55, w5_v56]
  rfl

/-! ## The run -/

/-- Every weakly fair execution of the kernel program terminates, nothing faulting, with the result array at three
    layers composed and every argument array as launched. -/
theorem run : θ_run defs (onTc (τ := τ) (main (F := Ideal))) ⟨m, fun _ => 0, ρ⟩ (fun r => ∀ c : Dev nD,
      r.2.mem ((c.tc : Thread nD τ).loc main_v57) = h3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (w6_v57 m ρ c), (h c).2⟩) (Cert.KernelIdeal.Out.run_out m ρ)

end Cert.Sage.KernelValue

end
-- ==== Proof.RefLayer.lean ====
/-
  One layer as the reference program computes it, and why it is the kernel program's layer.

  The reference divides the neighbour sums by the floored neighbour count, broadcast along the channels, multiplies by
  the transposed left projection, adds the bias broadcast along the nodes, adds the input times the transposed right
  projection, and applies the leaky activation with the slopes broadcast along the nodes. Read one element at a time,
  at node `n` and channel `j`:

      s = ( Σ_k (agg(n,k) / max(d(n), 1)) · Wl(j,k)  +  bl(j) )  +  Σ_k h(n,k) · Wr(j,k),   out = act(s, al(j)).

  The kernel program's layer (Graph.lean) has `agg(n,k) · (1 / max(d(n), 1))` in place of the quotient, and reads
  the transposed projections and the bias and slope rows where this one reads the projections and vectors themselves.
  The quotient by a floored count is the product with its reciprocal on every extended real (SageLayer.lean), and
  the layouts are read back by their index laws; so the two layers are one function of `agg`, `h`, `d` and the
  parameters — in particular of the neighbour sums and counts both programs compute by the same operations.
-/
import proofs.«180678_j54202487275779_1_alg».proof.Proof.Gen.ReferenceIdeal.Read
import proofs.«180678_j54202487275779_1_alg».proof.Proof.Graph
import Idealize.ShloMosaic.Lib.Pipeline.Value
import Idealize.ShloMosaic.Lib.ValueIdx
import Idealize.ShloMosaic.PureOps.Ideal.Laws

noncomputable section

namespace Cert.Sage.Ref

open Cert.ReferenceIdeal Cert.ReferenceIdeal.Gen Idealize.ShloMosaic Idealize.ShloMosaic.ValueIdx Cert.Sage

/-- The reference's pre-activation array. -/
def refPre (agg h : FVec Ideal S100000x128 .f32) (d : FVec Ideal S100000 .f32) (Wl : FVec Ideal S128x128 .f32)
    (bl : FVec Ideal S128 .f32) (Wr : FVec Ideal S128x128 .f32) : FVec Ideal S100000x128 .f32 :=
  addf (addf (Host.dotGeneral dot_S100000x128_S128x128_S100000x128_1_0_0_1_n_n none
        (Host.divf agg (broadcastInDim S100000x128 ![0, 1] bcast_S100000x1_S100000x128_0_1
          (broadcastInDim S100000x1 ![0] bcast_S100000_S100000x1_0
            (maximumf d (broadcastInDim S100000 ![] bcast_S_S100000 (constant S_ .f32 0x3F800000#32))))))
        (transpose S128x128 [1, 0] Wl transposes_S128x128_S128x128_1_0))
      (broadcastInDim S100000x128 ![0, 1] bcast_S1x128_S100000x128_0_1 (broadcastInDim S1x128 ![1] bcast_S128_S1x128_1 bl)))
    (Host.dotGeneral dot_S100000x128_S128x128_S100000x128_1_0_0_1_n_n none h (transpose S128x128 [1, 0] Wr transposes_S128x128_S128x128_1_0))

/-- The reference's layer output array. -/
def refLayer (agg h : FVec Ideal S100000x128 .f32) (d : FVec Ideal S100000 .f32) (Wl : FVec Ideal S128x128 .f32)
    (bl : FVec Ideal S128 .f32) (Wr : FVec Ideal S128x128 .f32) (al : FVec Ideal S128 .f32) : FVec Ideal S100000x128 .f32 :=
  select (cmpf .oge (refPre agg h d Wl bl Wr) (broadcastInDim S100000x128 ![] bcast_S_S100000x128 (constant S_ .f32 0x00000000#32)))
    (refPre agg h d Wl bl Wr)
    (mulf (broadcastInDim S100000x128 ![0, 1] bcast_S1x128_S100000x128_0_1 (broadcastInDim S1x128 ![1] bcast_S128_S1x128_1 al))
      (refPre agg h d Wl bl Wr))

/-! ## The operations, at an element -/

/-- The reference's product of a node array with a matrix is, at node `n` and channel `j`, the sum over the contraction
    index of row `n` times column `j`. -/
theorem dot_at {φ₁ φ₂ : FTy} (l : FVec Ideal S100000x128 φ₁) (r : FVec Ideal S128x128 φ₂) (n : Fin 100000) (j : Fin 128) :
    Host.dotGeneral dot_S100000x128_S128x128_S100000x128_1_0_0_1_n_n none l r (ix2 n j) = ∑ k : Fin 128, l (ix2 n k) * r (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 n j) ((ValueIdx.contrEquiv1 dot_S100000x128_S128x128_S100000x128_1_0_0_1_n_n 128 rfl rfl).symm k) = ix2 n k := funext fun a => Fin.ext (by
    match a with
    | ⟨0, _⟩ => exact Read.lhs_main_v24_0 _ _
    | ⟨1, _⟩ => exact (Read.lhs_main_v24_1 _ _).trans hk)
  have er : dot_S100000x128_S128x128_S100000x128_1_0_0_1_n_n.rhsIdx (ix2 n j) ((ValueIdx.contrEquiv1 dot_S100000x128_S128x128_S100000x128_1_0_0_1_n_n 128 rfl rfl).symm k) = ix2 k j := funext fun a => Fin.ext (by
    match a with
    | ⟨0, _⟩ => exact (Read.rhs_main_v24_0 _ _).trans hk
    | ⟨1, _⟩ => exact Read.rhs_main_v24_1 _ _)
  rw [el, er]

/-- A per-node vector broadcast to a column and then along the channels reads its node. -/
theorem bcast_node_at {α : Type} (v : S100000.Idx → α) (n : Fin 100000) (k : Fin 128) :
    broadcastInDim S100000x128 ![0, 1] bcast_S100000x1_S100000x128_0_1 (broadcastInDim S100000x1 ![0] bcast_S100000_S100000x1_0 v) (ix2 n k)
      = v (ix1 n) := by
  rw [broadcastInDim_apply _ bcast_S100000x1_S100000x128_0_1 _ (ix2 n k) (ix2 n 0) (fun a => match a with
    | ⟨0, _⟩ => by show n.val = if (100000 : Nat) = 1 then 0 else n.val; rw [if_neg (by decide)]
    | ⟨1, _⟩ => by show 0 = if (1 : Nat) = 1 then 0 else k.val; rw [if_pos rfl])]
  exact broadcastInDim_apply _ bcast_S100000_S100000x1_0 v (ix2 n 0) (ix1 n) (fun a => match a with
    | ⟨0, _⟩ => by show n.val = if (100000 : Nat) = 1 then 0 else n.val; rw [if_neg (by decide)])

/-- A per-channel vector broadcast to a row and then along the nodes reads its channel. -/
theorem bcast_chan_at {α : Type} (v : S128.Idx → α) (n : Fin 100000) (j : Fin 128) :
    broadcastInDim S100000x128 ![0, 1] bcast_S1x128_S100000x128_0_1 (broadcastInDim S1x128 ![1] bcast_S128_S1x128_1 v) (ix2 n j)
      = v (ix1 j) := by
  rw [broadcastInDim_apply _ bcast_S1x128_S100000x128_0_1 _ (ix2 n j) (ix2 0 j) (fun a => match a with
    | ⟨0, _⟩ => by show 0 = if (1 : Nat) = 1 then 0 else n.val; rw [if_pos rfl]
    | ⟨1, _⟩ => by show j.val = if (128 : Nat) = 1 then 0 else j.val; rw [if_neg (by decide)])]
  exact broadcastInDim_apply _ bcast_S128_S1x128_1 v (ix2 0 j) (ix1 j) (fun a => match a with
    | ⟨0, _⟩ => by show j.val = if (128 : Nat) = 1 then 0 else j.val; rw [if_neg (by decide)])

/-- The transposed projection at contraction index `k`, channel `j`. -/
theorem transpose_at {α : Type} (W : S128x128.Idx → α) (k j : Fin 128) :
    transpose S128x128 [1, 0] W transposes_S128x128_S128x128_1_0 (ix2 k j) = W (ix2 j k) :=
  transpose_apply [1, 0] W transposes_S128x128_S128x128_1_0 (ix2 k j) (ix2 j k) (fun b => match b with
    | ⟨0, _⟩ => rfl
    | ⟨1, _⟩ => rfl)

/-- The floored count of node `n`. -/
theorem floor_at (d : FVec Ideal S100000 .f32) (n : Fin 100000) :
    maximumf d (broadcastInDim S100000 ![] bcast_S_S100000 (constant S_ .f32 0x3F800000#32)) (ix1 n) = max (d (ix1 n)) 1 := by
  rw [maximumf_apply, broadcastInDim_apply _ bcast_S_S100000 _ (ix1 n) ix0 (fun a => a.elim0), constant_apply, ofBits_one]

/-- The zero the pre-activation is compared with. -/
theorem zero_at (n : Fin 100000) (j : Fin 128) :
    broadcastInDim S100000x128 ![] bcast_S_S100000x128 (constant (F := Ideal) S_ .f32 0x00000000#32) (ix2 n j) = Ideal.ofBits .f32 0x00000000#32 := by
  rw [broadcastInDim_apply _ bcast_S_S100000x128 _ (ix2 n j) ix0 (fun a => a.elim0), constant_apply]

/-! ## The layer, at an element -/

theorem refPre_at (agg h : FVec Ideal S100000x128 .f32) (d : FVec Ideal S100000 .f32) (Wl : FVec Ideal S128x128 .f32)
    (bl : FVec Ideal S128 .f32) (Wr : FVec Ideal S128x128 .f32) (n : Fin 100000) (j : Fin 128) :
    refPre agg h d Wl bl Wr (ix2 n j)
      = ((∑ k : Fin 128, Ideal.div (agg (ix2 n k)) (max (d (ix1 n)) 1) * Wl (ix2 j k)) + bl (ix1 j))
          + ∑ k : Fin 128, h (ix2 n k) * Wr (ix2 j k) := by
  unfold refPre
  rw [addf_apply, addf_apply, dot_at, dot_at, bcast_chan_at]
  congr 1
  · congr 1
    refine Finset.sum_congr rfl fun k _ => ?_
    rw [transpose_at]
    show Ideal.div (agg (ix2 n k)) _ * _ = _
    rw [bcast_node_at, floor_at]
  · refine Finset.sum_congr rfl fun k _ => ?_
    rw [transpose_at]

theorem refLayer_at (agg h : FVec Ideal S100000x128 .f32) (d : FVec Ideal S100000 .f32) (Wl : FVec Ideal S128x128 .f32)
    (bl : FVec Ideal S128 .f32) (Wr : FVec Ideal S128x128 .f32) (al : FVec Ideal S128 .f32) (n : Fin 100000) (j : Fin 128) :
    refLayer agg h d Wl bl Wr al (ix2 n j) = act (refPre agg h d Wl bl Wr (ix2 n j)) (al (ix1 j)) := by
  unfold refLayer
  rw [select_apply, cmpf_apply, mulf_apply, bcast_chan_at, zero_at]
  rfl

/-! ## The two programs' layers are one function -/

/-- On the neighbour sums and counts of the kernel program's text, the reference's layer is the kernel program's. -/
theorem refLayer_eq (h : FVec Ideal S100000x128 .f32) (e : IVec S2x1600000 32) (Wl : FVec Ideal S128x128 .f32)
    (bl : FVec Ideal S128 .f32) (Wr : FVec Ideal S128x128 .f32) (al : FVec Ideal S128 .f32) :
    refLayer (Graph.aggOf h e) h (Graph.cntOf e) Wl bl Wr al = Graph.kLayer h e Wl bl Wr al := by
  funext i
  obtain ⟨n, j, rfl⟩ : ∃ (n : Fin 100000) (j : Fin 128), i = ix2 n j := ⟨i 0, i 1, eq_ix2 i⟩
  unfold Graph.kLayer
  rw [layer_ix2, refLayer_at, refPre_at]
  unfold layerAt preAt
  simp only [Graph.meanW_at, Graph.tr_at, Graph.row_at, mul_div_one_max]

end Cert.Sage.Ref

end
-- ==== Proof.RefValue.lean ====
/-
  What the reference program's result array holds when it ends: the same three layers composed.

  The generated run states the result as the composed term of the reference's 132 host operations, and the generated
  stage-by-stage reading names each operation's value as a function of the arguments. Each layer's last stage is the
  reference's layer (RefLayer.lean) applied to the neighbour sums and counts of the layer's input, which are the
  kernel program's by the very same operations; the layer's input is the previous layer's last stage. The bridge of
  RefLayer.lean, used once per layer from the outside in, turns that into the three layers of Graph.lean.
-/
import proofs.«180678_j54202487275779_1_alg».proof.Proof.Gen.ReferenceIdeal.Run
import proofs.«180678_j54202487275779_1_alg».proof.Proof.Gen.ReferenceIdeal.Read
import proofs.«180678_j54202487275779_1_alg».proof.Proof.RefLayer

noncomputable section

namespace Cert.Sage.RefValue

open Cert.ReferenceIdeal Cert.ReferenceIdeal.Gen Cert.ReferenceIdeal.Read Idealize.ShloMosaic Idealize.SL.Sem
open Cert.Sage Cert.Sage.Ref

/-- The first layer's last stage. -/
theorem v36_eq (x0 : FVec Ideal S100000x128 .f32) (x1 : IVec S2x1600000 32) (x2 : FVec Ideal S128x128 .f32) (x3 : FVec Ideal S128 .f32) (x4 : FVec Ideal S128x128 .f32) (x5 : FVec Ideal S128 .f32) :
    val_main_v36 (F := Ideal) x0 x1 x2 x3 x4 x5 = refLayer (Graph.aggOf x0 x1) x0 (Graph.cntOf x1) x2 x3 x4 x5 := rfl

/-- The second layer's last stage, over the first's. -/
theorem v73_eq (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) :
    val_main_v73 (F := Ideal) x0 x1 x2 x3 x4 x5 x6 x7 x8 x9
      = refLayer (Graph.aggOf (val_main_v36 (F := Ideal) x0 x1 x2 x3 x4 x5) x1) (val_main_v36 (F := Ideal) x0 x1 x2 x3 x4 x5) (Graph.cntOf x1) x6 x7 x8 x9 := rfl

/-- The third layer's last stage, over the second's. -/
theorem v110_eq (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S128x128 .f32) (x13 : FVec Ideal S128 .f32) :
    val_main_v110 (F := Ideal) x0 x1 x2 x3 x4 x5 x6 x7 x8 x9 x10 x11 x12 x13
      = refLayer (Graph.aggOf (val_main_v73 (F := Ideal) x0 x1 x2 x3 x4 x5 x6 x7 x8 x9) x1) (val_main_v73 (F := Ideal) x0 x1 x2 x3 x4 x5 x6 x7 x8 x9) (Graph.cntOf x1) x10 x11 x12 x13 := rfl

/-- The reference's result is the three layers composed. -/
theorem res_eq (m : (ℓ : Loc nD τ sig) → Buf (Elt Ideal) ℓ) (c : Dev nD) :
    Cert.ReferenceIdeal.Value.res_main_v110 m c
      = Graph.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [val_main_v110_eq, v110_eq, refLayer_eq, v73_eq, refLayer_eq, v36_eq, refLayer_eq]
  rfl

end Cert.Sage.RefValue

end
-- ==== Proof.lean ====
/-
  Three mean-aggregating graph-convolution layers with per-channel leaky activations: a tiled kernel program
  against a whole-array reference, equal over the extended reals.

  Both programs start from node features `x` (100000 nodes, 128 channels), an edge list and, per layer, two 128×128
  projections, a bias and a vector of slopes. A layer gathers its input's rows at the edges' sources and adds them up
  at the destinations (the neighbour sums), counts the edges at each destination, and outputs

      act( mean · Wlᵀ + bl + h · Wrᵀ ),      mean(n, ·) = sums(n, ·) / max(count(n), 1),

  where `act(s) = s` for `s ≥ 0` and `slope · s` otherwise, channel by channel.

  The reference does this with whole-array operations, counting the edges anew in every layer. The kernel program
  counts once, keeps `1 / max(count, 1)` as a column, transposes the projections and lays bias and slopes out as
  rows on the host, and runs the dense part of each layer as a kernel over 25 blocks of 4000 nodes: the block's sums
  times the block's column of reciprocals, two matrix products into zero with operands narrowed to sixteen bits, the
  bias, the activation. The gather and the scatter-add are the same host operations in both programs.

  Why the results agree, element by element, at the exact values:
  * narrowing a float is the identity there, and a matrix product into zero is the plain sum over the contraction
    index, as is the reference's product; a block's rows are rows `4000·t …` of the whole arrays, and the 25 blocks
    tile the nodes, so each kernel region leaves ONE whole-array function of what it found (Body, Region0–2);
  * a count floored at one is never zero, so dividing by it is multiplying by its reciprocal for every extended
    real — no finiteness of the sums is needed, and the precondition is never opened (SageLayer);
  * transposes, rows and columns are read back by their index laws (Graph, RefLayer);
  * so one layer of the reference is one layer of the kernel program as functions of the layer's input, the edge
    list and the parameters (RefLayer), and the three layers compose the same way on both sides (KernelValue,
    RefValue).

  The ideal pass rewrote nothing in the kernel program, so its sanctioned idealization is its own text read at the
  exact values and there is nothing to restate for it. The frames of the two kernel programs are the generated ones;
  the reference's is its generated run with the result dropped.
-/
import proofs.«180678_j54202487275779_1_alg».proof.Defs
import proofs.«180678_j54202487275779_1_alg».proof.Proof.Gen.Kernel
import proofs.«180678_j54202487275779_1_alg».proof.Proof.Gen.Kernel.Frame
import proofs.«180678_j54202487275779_1_alg».proof.Proof.Gen.KernelIdeal
import proofs.«180678_j54202487275779_1_alg».proof.Proof.Gen.KernelIdeal.Frame
import proofs.«180678_j54202487275779_1_alg».proof.Proof.Gen.ReferenceIdeal
import proofs.«180678_j54202487275779_1_alg».proof.Proof.Gen.ReferenceIdeal.Run
import proofs.«180678_j54202487275779_1_alg».proof.Proof.Gen.ReferenceIdeal.Read
import proofs.«180678_j54202487275779_1_alg».proof.Proof.Gen.Pre_finite_inputs
import proofs.«180678_j54202487275779_1_alg».proof.Proof.KernelValue
import proofs.«180678_j54202487275779_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass's ledger is empty. -/
theorem preserves : Cert.preserves_Kernel_KernelIdeal := trivial

/-- Both programs end with the three layers composed, of arguments that agree. -/
theorem algebraic : Cert.algebraic_KernelIdeal_ReferenceIdeal := by
  intro m g m' g' _ hagree
  refine ⟨fun c => Cert.Sage.KernelValue.h3 m c, Cert.Sage.KernelValue.run m g, ?_⟩
  refine (θ_run Cert.ReferenceIdeal.defs _ _).mono (fun _ h c => ⟨(h c).1.trans ?_, (h c).2⟩)
    (Cert.ReferenceIdeal.Value.run (F := Ideal) m' g')
  obtain ⟨e0, e1, e2, e3, e4, e5, e6, e7, e8, e9, e10, e11, e12, e13⟩ := hagree c
  rw [Cert.Sage.RefValue.res_eq, e0, e1, e2, e3, e4, e5, e6, e7, e8, e9, e10, e11, e12, e13]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
